-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S4096x512 : Shape := ⟨2, ![4096, 512]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S4096 .f32) (main_arg8 : FVec F S4096 .f32) (main_arg9 : FVec F S4096 .f32) (main_arg10 : FVec F S4096 .f32) (main_arg11 : FVec F S1024 .f32) (main_arg12 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S4096 .f32) (main_arg5 : FVec F S4096x1024 .f32) (main_arg6 : FVec F S4096 .f32) (main_arg7 : FVec F S4096 .f32) (main_arg8 : FVec F S4096 .f32) (main_arg9 : FVec F S4096 .f32) (main_arg10 : FVec F S4096 .f32) (main_arg11 : FVec F S1024 .f32) (main_arg12 : FVec F S1024 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x512 .f32) (main_arg1 : FVec F S8192x1024 .f32) (main_arg2 : FVec F S8192x1024 .f32) (main_arg3 : FVec F S4096x512 .f32) (main_arg4 : FVec F S4096 .f32) (main_arg5 : FVec F S4096x1024 .f32) (main_arg6 : FVec F S4096 .f32) (main_arg7 : FVec F S4096 .f32) (main_arg8 : FVec F S4096 .f32) (main_arg9 : FVec F S4096 .f32) (main_arg10 : FVec F S4096 .f32) (main_arg11 : FVec F S1024 .f32) (main_arg12 : FVec F S1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_v13 main_v16
-- ==== Kernel.lean ====
abbrev S8192x512 : Shape := ⟨2, ![8192, 512]⟩
abbrev S8192x1024 : Shape := ⟨2, ![8192, 1024]⟩
abbrev S4096x512 : Shape := ⟨2, ![4096, 512]⟩
abbrev S4096 : Shape := ⟨1, ![4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S128x512 : Shape := ⟨2, ![128, 512]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 25
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S4096x512, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1024, .f32⟩
  | .hbm, ⟨12, _⟩ => ⟨S1024, .f32⟩
  | .hbm, ⟨13, _⟩ => ⟨S4096x512, .bf16⟩
  | .hbm, ⟨14, _⟩ => ⟨S4096x1024, .bf16⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4096x512, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_v0_0 : Ref sig .tc := ⟨.hbm, 23, rfl⟩
abbrev main_v0_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S128x1024_S128 : S128x1024.Reduces [1] S128
  broadcasts_S128x1_S128x1024 : S128x1.Broadcasts S128x1024
  broadcasts_S1x1024_S128x1024 : S1x1024.Broadcasts S128x1024
  dot_S128x512_S4096x512_S128x4096_1_1_0_0_n_n_wf : DotDims.WF S128x512 S4096x512 S128x4096 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1024.size a ≤ S8192x1024.size a
  hwx0_13 : ∀ i : grid0.Coords, EltTy.bits .f32 = 32 ∨ (Rect.block (s := S8192x1024) S128x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1024.size a ≤ S8192x1024.size a
  hwx0_14 : ∀ i : grid0.Coords, EltTy.bits .f32 = 32 ∨ (Rect.block (s := S8192x1024) S128x1024.size (cc0_transform_14 i) (hinb0_14 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v5) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v6) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v7) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v8) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v9) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_0) S128x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S128x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S4096x512 : Shape := ⟨2, ![4096, 512]⟩
abbrev S4096 : Shape := ⟨1, ![4096]⟩
abbrev S4096x1024 : Shape := ⟨2, ![4096, 1024]⟩
abbrev S1024 : Shape := ⟨1, ![1024]⟩
abbrev S512x4096 : Shape := ⟨2, ![512, 4096]⟩
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S1x1024 : Shape := ⟨2, ![1, 1024]⟩

abbrev nBuf : Space → Nat
  | .hbm => 145
  | .vmem => 0
  | .smem => 0
  | _ => 0

abbrev hbmTy0_0 (i : Nat) : BufTy := match i % 128 with
  | 0 => ⟨S8192x512, .f32⟩
  | 1 => ⟨S8192x1024, .f32⟩
  | 2 => ⟨S8192x1024, .f32⟩
  | 3 => ⟨S4096x512, .f32⟩
  | 4 => ⟨S4096, .f32⟩
  | 5 => ⟨S4096x1024, .f32⟩
  | 6 => ⟨S4096, .f32⟩
  | 7 => ⟨S4096, .f32⟩
  | 8 => ⟨S4096, .f32⟩
  | 9 => ⟨S4096, .f32⟩
  | 10 => ⟨S4096, .f32⟩
  | 11 => ⟨S1024, .f32⟩
  | 12 => ⟨S1024, .f32⟩
  | 13 => ⟨S512x4096, .f32⟩
  | 14 => ⟨S8192x4096, .f32⟩
  | 15 => ⟨S1x4096, .f32⟩
  | 16 => ⟨S8192x4096, .f32⟩
  | 17 => ⟨S8192x4096, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x4096, .f32⟩
  | 25 => ⟨S8192x4096, .f32⟩
  | 26 => ⟨S8192x4096, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x4096, .f32⟩
  | 34 => ⟨S8192x4096, .f32⟩
  | 35 => ⟨S_, .f32⟩
  | 36 => ⟨S8192x1, .f32⟩
  | 37 => ⟨S8192x1, .f32⟩
  | 38 => ⟨S8192x1, .f32⟩
  | 39 => ⟨S8192x4096, .f32⟩
  | 40 => ⟨S8192x4096, .f32⟩
  | 41 => ⟨S1x4096, .f32⟩
  | 42 => ⟨S8192x4096, .f32⟩
  | 43 => ⟨S8192x4096, .f32⟩
  | 44 => ⟨S1x4096, .f32⟩
  | 45 => ⟨S8192x4096, .f32⟩
  | 46 => ⟨S8192x4096, .f32⟩
  | 47 => ⟨S1024x4096, .f32⟩
  | 48 => ⟨S8192x4096, .f32⟩
  | 49 => ⟨S1x4096, .f32⟩
  | 50 => ⟨S8192x4096, .f32⟩
  | 51 => ⟨S8192x4096, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x4096, .f32⟩
  | 59 => ⟨S8192x4096, .f32⟩
  | 60 => ⟨S8192x4096, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S8192x4096, .f32⟩
  | 68 => ⟨S8192x4096, .f32⟩
  | 69 => ⟨S_, .f32⟩
  | 70 => ⟨S8192x1, .f32⟩
  | 71 => ⟨S8192x1, .f32⟩
  | 72 => ⟨S8192x1, .f32⟩
  | 73 => ⟨S8192x4096, .f32⟩
  | 74 => ⟨S8192x4096, .f32⟩
  | 75 => ⟨S1x4096, .f32⟩
  | 76 => ⟨S8192x4096, .f32⟩
  | 77 => ⟨S8192x4096, .f32⟩
  | 78 => ⟨S1x4096, .f32⟩
  | 79 => ⟨S8192x4096, .f32⟩
  | 80 => ⟨S8192x4096, .f32⟩
  | 81 => ⟨S8192x4096, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x512, .f32⟩

abbrev hbmTy0_1 (i : Nat) : BufTy := match i % 128 with
  | 0 => ⟨S8192x1, .f32⟩
  | 1 => ⟨S8192x1024, .f32⟩
  | 2 => ⟨S8192x1024, .f32⟩
  | 3 => ⟨S_, .f32⟩
  | 4 => ⟨S8192x1, .f32⟩
  | 5 => ⟨S8192x1, .f32⟩
  | 6 => ⟨S8192x1, .f32⟩
  | 7 => ⟨S8192x1024, .f32⟩
  | 8 => ⟨S8192x1024, .f32⟩
  | 9 => ⟨S1x1024, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_cst_14 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_17 : Ref sig .tc := ⟨.hbm, 123, rfl⟩
abbrev main_v92 : Ref sig .tc := ⟨.hbm, 124, rfl⟩
abbrev main_v93 : Ref sig .tc := ⟨.hbm, 125, rfl⟩
abbrev main_cst_18 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  transposes_S4096x1024_S1024x4096_1_0 : S4096x1024.Transposes [1, 0] S1024x4096
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  reducesTo_S8192x1024_S8192_d1 : S8192x1024.ReducesTo [1] S8192
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x512_S512x4096_S8192x4096_1_0_0_1_n_n_wf : DotDims.WF S8192x512 S512x4096 S8192x4096 [1] [0] [0] [1] [] []
  dot_S8192x1024_S1024x4096_S8192x4096_1_0_0_1_n_n_wf : DotDims.WF S8192x1024 S1024x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibRowOps.lean ====
/-
  Rank-2 ROW OPERATIONS read at an index, for any extents.

  A LayerNorm over the last axis of an [a, b] array is built from: the sum of each row, that sum kept as an [a, 1]
  column, the column spread back over the b columns, and a [1, b] row of per-column scales spread over the a rows.
  A kernel writes these with `vector.multi_reduction`, `vector.shape_cast` and `vector.broadcast`; jnp on the host with
  `stablehlo.reduce` and `stablehlo.broadcast_in_dim`. Each lemma says which element of the operand an element of the
  result is; the two sums are read as `∑ k : Fin b` over the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type} {a b : Nat}

/-! ## The kernel's forms -/

/-- A vector [a] kept as a column [a, 1]: element (p, 0) is element p. -/
theorem shapeCast_col_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] spread over b columns: element (p, c) is the column's element (p, 0). -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p with column k inserted is (p, k). -/
theorem lift_row (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A kernel's sum over the last axis, at row p: the sum of the row. -/
theorem multiReduction_row_apply {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-! ## The host's forms -/

/-- A vector [b] as a row [1, b] (`broadcast_in_dim`, dims = [1]): element (0, q) is element q. -/
theorem bcastInDim_row_apply (h : (⟨1, ![b]⟩ : Shape).BroadcastsInDim ⟨2, ![1, b]⟩ ![1]) (x : (⟨1, ![b]⟩ : Shape).Idx → α)
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows (dims = [0, 1]): element (r, q) is the row's element (0, q). -/
theorem bcastInDim_rows_apply (h : (⟨2, ![1, b]⟩ : Shape).BroadcastsInDim ⟨2, ![a, b]⟩ ![0, 1]) (x : (⟨2, ![1, b]⟩ : Shape).Idx → α)
    (r : Fin a) (q : Fin b) : broadcastInDim ⟨2, ![a, b]⟩ ![0, 1] h x (ix2 r q) = x (ix2 (0 : Fin 1) q) := by
  refine broadcastInDim_apply _ h x (ix2 r q) (ix2 (0 : Fin 1) q) fun ax => ?_
  match ax with
  | ⟨0, _⟩ => rfl
  | ⟨1, _⟩ =>
    show q.val = if b = 1 then 0 else q.val
    split
    · have := q.isLt; omega
    · rfl

/-- A vector [a] kept as a column [a, 1] (dims = [0]): element (r, 0) is element r. -/
theorem bcastInDim_col_apply (h : (⟨1, ![a]⟩ : Shape).BroadcastsInDim ⟨2, ![a, 1]⟩ ![0]) (x : (⟨1, ![a]⟩ : Shape).Idx → α)
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b columns (dims = [0, 1]): element (r, q) is the column's element (r, 0). -/
theorem bcastInDim_cols_apply (h : (⟨2, ![a, 1]⟩ : Shape).BroadcastsInDim ⟨2, ![a, b]⟩ ![0, 1]) (x : (⟨2, ![a, 1]⟩ : Shape).Idx → α)
    (r : Fin a) (q : Fin b) : broadcastInDim ⟨2, ![a, b]⟩ ![0, 1] h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ => rfl

/-- A scalar spread over any shape (dims = []): every element is the scalar. -/
theorem bcastInDim_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 fun ax => ax.elim0

/-- The host's sum over the last axis, at row r: the initial value plus the sum of the row. -/
theorem hostReduceAdd_row_apply {φ : FTy} (x : FVec Ideal ⟨2, ![a, b]⟩ φ) (init : FVec Ideal ⟨0, ![]⟩ φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduceAdd x init h' hu (ix1 r) = init ix0 + ∑ k : Fin b, x (ix2 r k) := by
  unfold Host.reduceAdd
  rw [Ideal.hostReduceAdd_def, Ideal.hostReduceAdd_single h' h, eq_ix0 (Shape.Idx.first hu)]
  exact congrArg (init ix0 + ·) (Finset.sum_congr rfl fun k _ => congrArg x (lift_row h r k))

end Idealize.ShloMosaic.RowOps

end
-- ==== Proof.LibLayerNormAt.lean ====
/-
  A row normalised to zero mean and unit variance, read at an index.

  For a row r of n numbers, a count nf and a small eps,
      rowMean nf r   = (∑ k, r k) / nf
      rowNorm nf eps r q = (r q − mean) · rsqrt ((∑ k, (r k − mean)²) / nf + eps),        mean = rowMean nf r,
  on the extended reals with the ideal division and reciprocal square root. This is the core of a LayerNorm over the last
  axis of an [a, b] array. A kernel computes it with row sums kept as [a, 1] columns and spread back (`vecNorm`); jnp on
  the host computes it with `stablehlo.reduce` and `broadcast_in_dim` (`hostNorm`). Both, read at (p, q), are
  `rowNorm` of row p at q: the same function, so no algebra is needed to compare them.
-/
import proofs.«426183_j66718021976166_3_alg».proof.Proof.LibRowOps

noncomputable section

open scoped BigOperators

namespace Idealize.ShloMosaic.LayerNormAt

open Idealize.ShloMosaic Idealize.ShloMosaic.ValueIdx Idealize.ShloMosaic.RowOps

variable {a b n : Nat}

/-- The mean of a row: its sum divided by the count. -/
def rowMean (nf : EReal) (r : Fin n → EReal) : EReal := Ideal.div (∑ k, r k) nf

/-- A row centred at its mean and scaled by the reciprocal square root of its variance plus eps. -/
def rowNorm (nf eps : EReal) (r : Fin n → EReal) (q : Fin n) : EReal :=
  (r q - rowMean nf r) * Ideal.rsqrt (rowMean nf (fun k => (r k - rowMean nf r) * (r k - rowMean nf r)) + eps)

/-- Equal rows have equal normalisations. -/
theorem rowNorm_congr (nf eps : EReal) {r r' : Fin n → EReal} (h : ∀ k, r k = r' k) (q : Fin n) :
    rowNorm nf eps r q = rowNorm nf eps r' q := by rw [funext h]

/-! ## Pointwise operations at an index -/

theorem rsqrt_apply {s : Shape} {φ : FTy} (x : FVec Ideal s φ) (i : s.Idx) : rsqrt x i = Ideal.rsqrt (x i) := rfl
theorem tanh_apply {s : Shape} {φ : FTy} (x : FVec Ideal s φ) (i : s.Idx) : tanh x i = Ideal.tanh (x i) := rfl
theorem logistic_apply {s : Shape} {φ : FTy} (x : FVec Ideal s φ) (i : s.Idx) : logistic x i = Ideal.logistic (x i) := rfl
theorem hostDivf_apply {s : Shape} {φ : FTy} (x y : FVec Ideal s φ) (i : s.Idx) : Host.divf x y i = Ideal.div (x i) (y i) := rfl
theorem hostRsqrt_apply {s : Shape} {φ : FTy} (x : FVec Ideal s φ) (i : s.Idx) : Host.rsqrt x i = Ideal.rsqrt (x i) := rfl
theorem hostTanh_apply {s : Shape} {φ : FTy} (x : FVec Ideal s φ) (i : s.Idx) : Host.tanh x i = Ideal.tanh (x i) := rfl
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl

/-! ## The kernel's form -/

section Kernel

variable (x : FVec Ideal ⟨2, ![a, b]⟩ .f32) (nw ew : BitVec 32)
  (hr : (⟨2, ![a, b]⟩ : Shape).Reduces [1] ⟨1, ![a]⟩) (hsc : (⟨1, ![a]⟩ : Shape).ShapeCasts ⟨2, ![a, 1]⟩)
  (hb : (⟨2, ![a, 1]⟩ : Shape).Broadcasts ⟨2, ![a, b]⟩) (hφ : FKind.Formats .f32)
  (hacc : (0x00000000#32 : BitVec 32) = FKind.add.neutral .f32 hφ)

/-- The row means as an [a, 1] column: the row sums, kept as a column, divided by the count's splat. -/
def vecMean : FVec Ideal ⟨2, ![a, 1]⟩ .f32 :=
  divf (shapeCast ⟨2, ![a, 1]⟩ (multiReduction .add [1] ⟨1, ![a]⟩ x 0x00000000#32 hr hφ hacc) hsc)
    (broadcast ⟨2, ![a, 1]⟩ (Scalar.ofBits .f32 nw))

theorem vecMean_apply (p : Fin a) (u : Fin 1) :
    vecMean x nw hr hsc hφ hacc (ix2 p u) = rowMean (Ideal.ofBits .f32 nw) (fun k => x (ix2 p k)) := by
  unfold vecMean rowMean
  rw [divf_apply, shapeCast_col_apply, multiReduction_row_apply, broadcast_apply]
  rfl

/-- The array centred row by row and scaled by the reciprocal square root of each row's variance plus eps. -/
def vecNorm : FVec Ideal ⟨2, ![a, b]⟩ .f32 :=
  mulf (subf x (broadcastTo ⟨2, ![a, b]⟩ (vecMean x nw hr hsc hφ hacc) hb))
    (broadcastTo ⟨2, ![a, b]⟩
      (rsqrt (addf
        (vecMean (mulf (subf x (broadcastTo ⟨2, ![a, b]⟩ (vecMean x nw hr hsc hφ hacc) hb))
                       (subf x (broadcastTo ⟨2, ![a, b]⟩ (vecMean x nw hr hsc hφ hacc) hb))) nw hr hsc hφ hacc)
        (broadcast ⟨2, ![a, 1]⟩ (Scalar.ofBits .f32 ew)))) hb)

theorem vecNorm_apply (p : Fin a) (q : Fin b) :
    vecNorm x nw ew hr hsc hb hφ hacc (ix2 p q)
      = rowNorm (Ideal.ofBits .f32 nw) (Ideal.ofBits .f32 ew) (fun k => x (ix2 p k)) q := by
  unfold vecNorm rowNorm
  simp only [mulf_apply, subf_apply, addf_apply, rsqrt_apply, broadcastTo_col_apply, vecMean_apply, broadcast_apply]
  rfl

end Kernel

/-! ## The host's form -/

section Host

variable (x : FVec Ideal ⟨2, ![a, b]⟩ .f32) (nw ew : BitVec 32)
  (hrt : (⟨2, ![a, b]⟩ : Shape).ReducesTo [1] ⟨1, ![a]⟩) (hu : 0 < (⟨0, ![]⟩ : Shape).numel)
  (hc : (⟨1, ![a]⟩ : Shape).BroadcastsInDim ⟨2, ![a, 1]⟩ ![0])
  (hs : (⟨0, ![]⟩ : Shape).BroadcastsInDim ⟨2, ![a, 1]⟩ ![])
  (hcs : (⟨2, ![a, 1]⟩ : Shape).BroadcastsInDim ⟨2, ![a, b]⟩ ![0, 1])

/-- The row means as an [a, 1] column: the host's row sums from zero, kept as a column, divided by the count's splat. -/
def hostMean : FVec Ideal ⟨2, ![a, 1]⟩ .f32 :=
  Host.divf (broadcastInDim ⟨2, ![a, 1]⟩ ![0] hc (Host.reduceAdd x (constant ⟨0, ![]⟩ .f32 0x00000000#32) hrt hu))
    (broadcastInDim ⟨2, ![a, 1]⟩ ![] hs (constant ⟨0, ![]⟩ .f32 nw))

theorem hostMean_apply (hr : (⟨2, ![a, b]⟩ : Shape).Reduces [1] ⟨1, ![a]⟩) (r : Fin a) (u : Fin 1) :
    hostMean x nw hrt hu hc hs (ix2 r u) = rowMean (Ideal.ofBits .f32 nw) (fun k => x (ix2 r k)) := by
  unfold hostMean rowMean
  rw [hostDivf_apply, bcastInDim_col_apply, hostReduceAdd_row_apply x _ hrt hu hr, bcastInDim_scalar_apply,
    constant_apply, constant_apply, Ideal.ofBits_zero_f32, zero_add]

/-- The array centred row by row and scaled by the reciprocal square root of each row's variance plus eps. -/
def hostNorm : FVec Ideal ⟨2, ![a, b]⟩ .f32 :=
  mulf (subf x (broadcastInDim ⟨2, ![a, b]⟩ ![0, 1] hcs (hostMean x nw hrt hu hc hs)))
    (broadcastInDim ⟨2, ![a, b]⟩ ![0, 1] hcs
      (Host.rsqrt (addf
        (hostMean (mulf (subf x (broadcastInDim ⟨2, ![a, b]⟩ ![0, 1] hcs (hostMean x nw hrt hu hc hs)))
                        (subf x (broadcastInDim ⟨2, ![a, b]⟩ ![0, 1] hcs (hostMean x nw hrt hu hc hs)))) nw hrt hu hc hs)
        (broadcastInDim ⟨2, ![a, 1]⟩ ![] hs (constant ⟨0, ![]⟩ .f32 ew)))))

theorem hostNorm_apply (hr : (⟨2, ![a, b]⟩ : Shape).Reduces [1] ⟨1, ![a]⟩) (r : Fin a) (q : Fin b) :
    hostNorm x nw ew hrt hu hc hs hcs (ix2 r q)
      = rowNorm (Ideal.ofBits .f32 nw) (Ideal.ofBits .f32 ew) (fun k => x (ix2 r k)) q := by
  unfold hostNorm rowNorm
  rw [mulf_apply, subf_apply, bcastInDim_cols_apply hcs, hostMean_apply x nw hrt hu hc hs hr, bcastInDim_cols_apply hcs,
    hostRsqrt_apply, addf_apply, hostMean_apply _ nw hrt hu hc hs hr, bcastInDim_scalar_apply, constant_apply]
  simp only [mulf_apply, subf_apply, bcastInDim_cols_apply hcs, hostMean_apply x nw hrt hu hc hs hr]

end Host

end Idealize.ShloMosaic.LayerNormAt

end
-- ==== Proof.LstmSpec.lean ====
/-
  The LayerNorm LSTM cell, one batch row at a time, on the extended reals.

  For a batch row with input xr (512 numbers), previous hidden state hr and previous cell state cr (1024 each):
      affine xr W b q      = (∑ k, xr k · W q k) + b q                      the row times a weight matrix's row q, plus bias
      layerNorm nf eps r g β q = rowNorm nf eps r q · g q + β q             normalise the row, then scale and shift per column
      rowGates q           = layerNorm (affine xr Wi bi) + layerNorm (affine hr Wh bh)          (4096 gate pre-activations)
      rowCell j            = σ(gates (1024 + j)) · cr j + σ(gates j) · tanh(gates (2048 + j))   (the new cell state)
      rowHidden j          = σ(gates (3072 + j)) · tanh(layerNorm rowCell g_cell b_cell j)      (the new hidden state)
  with σ the logistic function. The batch rows do not interact, which is why a kernel may work on 128 rows at a time.
-/
import proofs.«426183_j66718021976166_3_alg».proof.Proof.LibLayerNormAt

noncomputable section

open scoped BigOperators

namespace Cert.LstmSpec

open Idealize.ShloMosaic Idealize.ShloMosaic.ValueIdx Idealize.ShloMosaic.LayerNormAt

/-- The three float constants of the cell: the row lengths 4096 and 1024, and the LayerNorm epsilon's f32 word. -/
abbrev c4096 : EReal := Ideal.ofBits .f32 0x45800000#32
abbrev c1024 : EReal := Ideal.ofBits .f32 0x44800000#32
abbrev ceps : EReal := Ideal.ofBits .f32 0x3727C5AC#32

/-- A row times the rows of a weight matrix, plus a bias. -/
def affine {K N : Nat} (xr : Fin K → EReal) (W : Fin N → Fin K → EReal) (b : Fin N → EReal) (q : Fin N) : EReal :=
  (∑ k, xr k * W q k) + b q

theorem affine_congr {K N : Nat} {xr xr' : Fin K → EReal} {W W' : Fin N → Fin K → EReal} {b b' : Fin N → EReal}
    (hx : ∀ k, xr k = xr' k) (hW : ∀ q k, W q k = W' q k) (hb : ∀ q, b q = b' q) (q : Fin N) :
    affine xr W b q = affine xr' W' b' q := by
  rw [funext hx, show W = W' from funext fun q => funext (hW q), funext hb]

/-- A normalised row scaled and shifted column by column. -/
def layerNorm {n : Nat} (nf eps : EReal) (r g β : Fin n → EReal) (q : Fin n) : EReal :=
  rowNorm nf eps r q * g q + β q

/-- The cell's parameters as plain functions of their indices. -/
structure Params where
  Wi : Fin 4096 → Fin 512 → EReal
  bi : Fin 4096 → EReal
  Wh : Fin 4096 → Fin 1024 → EReal
  bh : Fin 4096 → EReal
  gi : Fin 4096 → EReal
  βi : Fin 4096 → EReal
  gh : Fin 4096 → EReal
  βh : Fin 4096 → EReal
  gc : Fin 1024 → EReal
  βc : Fin 1024 → EReal

/-- Column j of the quarter of the 4096 gate columns that starts at o. -/
def gate (o : Nat) (ho : o + 1024 ≤ 4096) (j : Fin 1024) : Fin 4096 := ⟨o + j.val, by have := j.isLt; omega⟩

/-- The 4096 gate pre-activations of a row: the two projections, each layer-normalised, added. -/
def rowGates (P : Params) (xr : Fin 512 → EReal) (hr : Fin 1024 → EReal) (q : Fin 4096) : EReal :=
  layerNorm c4096 ceps (affine xr P.Wi P.bi) P.gi P.βi q + layerNorm c4096 ceps (affine hr P.Wh P.bh) P.gh P.βh q

/-- The new cell state from a row's gates: forget · previous + input · candidate. -/
def cellOf (G : Fin 4096 → EReal) (cr : Fin 1024 → EReal) (j : Fin 1024) : EReal :=
  Ideal.logistic (G (gate 1024 (by norm_num) j)) * cr j
    + Ideal.logistic (G (gate 0 (by norm_num) j)) * Ideal.tanh (G (gate 2048 (by norm_num) j))

/-- The new hidden state from a row's gates and its new cell state: output gate · tanh of the normalised cell. -/
def hiddenOf (G : Fin 4096 → EReal) (cn gc βc : Fin 1024 → EReal) (j : Fin 1024) : EReal :=
  Ideal.logistic (G (gate 3072 (by norm_num) j)) * Ideal.tanh (layerNorm c1024 ceps cn gc βc j)

def rowCell (P : Params) (xr : Fin 512 → EReal) (hr cr : Fin 1024 → EReal) : Fin 1024 → EReal :=
  cellOf (rowGates P xr hr) cr

def rowHidden (P : Params) (xr : Fin 512 → EReal) (hr cr : Fin 1024 → EReal) : Fin 1024 → EReal :=
  hiddenOf (rowGates P xr hr) (rowCell P xr hr cr) P.gc P.βc

/-! ## The whole arrays -/

/-- The parameters read off the argument arrays: the weights [4096, K], the per-column vectors [4096] and [1024]. -/
def arrParams (Wi : (⟨2, ![4096, 512]⟩ : Shape).Idx → EReal) (bi : (⟨1, ![4096]⟩ : Shape).Idx → EReal)
    (Wh : (⟨2, ![4096, 1024]⟩ : Shape).Idx → EReal) (bh gi βi gh βh : (⟨1, ![4096]⟩ : Shape).Idx → EReal)
    (gc βc : (⟨1, ![1024]⟩ : Shape).Idx → EReal) : Params where
  Wi := fun q k => Wi (ix2 q k)
  bi := fun q => bi (ix1 q)
  Wh := fun q k => Wh (ix2 q k)
  bh := fun q => bh (ix1 q)
  gi := fun q => gi (ix1 q)
  βi := fun q => βi (ix1 q)
  gh := fun q => gh (ix1 q)
  βh := fun q => βh (ix1 q)
  gc := fun j => gc (ix1 j)
  βc := fun j => βc (ix1 j)

/-- The new cell state of the whole batch: row by row. -/
def cellArr (P : Params) (x : (⟨2, ![8192, 512]⟩ : Shape).Idx → EReal) (h c : (⟨2, ![8192, 1024]⟩ : Shape).Idx → EReal) :
    (⟨2, ![8192, 1024]⟩ : Shape).Idx → EReal :=
  fun i => rowCell P (fun k => x (ix2 (i 0) k)) (fun k => h (ix2 (i 0) k)) (fun k => c (ix2 (i 0) k)) (i 1)

/-- The new hidden state of the whole batch: row by row. -/
def hiddenArr (P : Params) (x : (⟨2, ![8192, 512]⟩ : Shape).Idx → EReal) (h c : (⟨2, ![8192, 1024]⟩ : Shape).Idx → EReal) :
    (⟨2, ![8192, 1024]⟩ : Shape).Idx → EReal :=
  fun i => rowHidden P (fun k => x (ix2 (i 0) k)) (fun k => h (ix2 (i 0) k)) (fun k => c (ix2 (i 0) k)) (i 1)

end Cert.LstmSpec

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.KernelPay.lean ====
/-
  The kernel body's values, read at an index of the 128-row block.

  The body works on a block of 128 batch rows. Every value it computes at (p, ·) depends only on row p of the three
  streamed blocks (input, previous hidden state, previous cell state) and on the resident parameters, and is the
  corresponding row function of the specification: the two projections are `affine` of row p (a matmul contracting the
  last axes of both operands, plus a broadcast bias row), each LayerNorm is `rowNorm` of the projection's row scaled and
  shifted, the four gate slices are the four quarters of the 4096 columns, and the cell's LayerNorm runs over the 1024
  columns of the new cell state's row. The bf16 casts of the matmul operands are the identity on the extended reals.
-/
import proofs.«426183_j66718021976166_3_alg».proof.Proof.Gen.KernelIdeal.Skeleton
import proofs.«426183_j66718021976166_3_alg».proof.Proof.LstmSpec
import proofs.«426183_j66718021976166_3_alg».proof.Proof.LibMatmulAt
import Idealize.ShloMosaic.Lib.ValueLayout
import Idealize.ShloMosaic.Lib.Pipeline.Value

noncomputable section

open scoped BigOperators

namespace Cert.KernelPay

open Idealize.ShloMosaic Idealize.ShloMosaic.ValueIdx Idealize.ShloMosaic.RowOps Idealize.ShloMosaic.LayerNormAt
open Idealize.ShloMosaic.MatmulAt Cert.KernelIdeal Cert.KernelIdeal.Gen Cert.LstmSpec

/-- The block's parameters: the resident weight blocks [4096, K] and the [1, n] rows of per-column vectors. -/
def blkParams (x3 : Vec Ideal S4096x512 .bf16) (x4 : Vec Ideal S4096x1024 .bf16)
    (x5 x6 x7 x8 x9 x10 : Vec Ideal S1x4096 .f32) (x11 x12 : Vec Ideal S1x1024 .f32) : Params where
  Wi := fun q k => x3 (ix2 q k)
  bi := fun q => x5 (ix2 (0 : Fin 1) q)
  Wh := fun q k => x4 (ix2 q k)
  bh := fun q => x6 (ix2 (0 : Fin 1) q)
  gi := fun q => x7 (ix2 (0 : Fin 1) q)
  βi := fun q => x8 (ix2 (0 : Fin 1) q)
  gh := fun q => x9 (ix2 (0 : Fin 1) q)
  βh := fun q => x10 (ix2 (0 : Fin 1) q)
  gc := fun j => x11 (ix2 (0 : Fin 1) j)
  βc := fun j => x12 (ix2 (0 : Fin 1) j)

/-- A projection of the block: the matmul contracting the last axes of the block [128, K] and the weights [4096, K]
    into a zero accumulator, plus the bias row spread over the 128 rows, at (p, q), is `affine` of row p at q. -/
theorem proj_apply {K : Nat} (l : FVec Ideal ⟨2, ![128, K]⟩ .bf16) (W : FVec Ideal ⟨2, ![4096, K]⟩ .bf16)
    (bv : FVec Ideal ⟨2, ![1, 4096]⟩ .f32) (hb : (⟨2, ![1, 4096]⟩ : Shape).Broadcasts ⟨2, ![128, 4096]⟩)
    (p : Fin 128) (q : Fin 4096) :
    addf (matmul (DotDims.transposedRhs 128 K 4096) none l W (constant ⟨2, ![128, 4096]⟩ .f32 0x00000000#32))
        (broadcastTo ⟨2, ![128, 4096]⟩ bv hb) (ix2 p q)
      = affine (fun k => l (ix2 p k)) (fun n k => W (ix2 n k)) (fun n => bv (ix2 (0 : Fin 1) n)) q := by
  rw [addf_apply, broadcastTo_1b_ab_apply]
  show FloatOps.matmul _ _ _ _ _ _ + _ = _
  rw [matmul_transposedRhs_apply]
  rfl

/-- The input projection, normalised (before its scale and shift). -/
theorem pay5_apply (v0 : Vec Ideal S128x512 .f32) (v5 : Vec Ideal S4096x512 .bf16) (v10 : Vec Ideal S1x4096 .f32)
    (p : Fin 128) (q : Fin 4096) :
    k0_pay5 v0 v5 v10 (ix2 p q)
      = rowNorm c4096 ceps (affine (fun k => v0 (ix2 p k)) (fun n k => v5 (ix2 n k)) (fun n => v10 (ix2 (0 : Fin 1) n))) q := by
  have e : k0_pay5 v0 v5 v10
      = vecNorm (addf (matmul (DotDims.transposedRhs 128 512 4096) none (truncf .bf16 v0 bitsLt_bf16_f32)
            (shapeCast S4096x512 v5 shapeCasts_S4096x512_S4096x512) (constant S128x4096 .f32 0x00000000#32))
          (broadcastTo S128x4096 (shapeCast S1x4096 v10 shapeCasts_S1x4096_S1x4096) broadcasts_S1x4096_S128x4096))
        0x45800000#32 0x3727C5AC#32 reduces_S128x4096_S128 shapeCasts_S128_S128x1 broadcasts_S128x1_S128x4096 (.inl rfl) rfl := rfl
  rw [e]
  refine (vecNorm_apply _ _ _ _ _ _ _ _ p q).trans (rowNorm_congr _ _ (fun k => ?_) q)
  rw [proj_apply, shapeCast_self, shapeCast_self]
  rfl

/-- The gate pre-activations: the scaled and shifted input projection plus the hidden projection, normalised,
    scaled and shifted. -/
theorem pay7_apply (v3 : FVec Ideal S128x1024 .bf16) (v8 : FVec Ideal S4096x1024 .bf16) (v17 : FVec Ideal S1x4096 .f32)
    (v35 v36 : FVec Ideal S128x4096 .f32) (v41 v45 v47 : Vec Ideal S1x4096 .f32) (p : Fin 128) (q : Fin 4096) :
    k0_pay7 v3 v8 v17 v35 v36 v41 v45 v47 (ix2 p q)
      = (v35 (ix2 p q) * v36 (ix2 p q) + v17 (ix2 (0 : Fin 1) q))
        + (rowNorm c4096 ceps (affine (fun k => v3 (ix2 p k)) (fun n k => v8 (ix2 n k)) (fun n => v41 (ix2 (0 : Fin 1) n))) q
            * v45 (ix2 (0 : Fin 1) q) + v47 (ix2 (0 : Fin 1) q)) := by
  have e : k0_pay7 v3 v8 v17 v35 v36 v41 v45 v47
      = addf (addf (mulf v35 v36) (broadcastTo S128x4096 v17 broadcasts_S1x4096_S128x4096))
          (addf (mulf
              (vecNorm (addf (matmul (DotDims.transposedRhs 128 1024 4096) none v3 v8 (constant S128x4096 .f32 0x00000000#32))
                  (broadcastTo S128x4096 (shapeCast S1x4096 v41 shapeCasts_S1x4096_S1x4096) broadcasts_S1x4096_S128x4096))
                0x45800000#32 0x3727C5AC#32 reduces_S128x4096_S128 shapeCasts_S128_S128x1 broadcasts_S128x1_S128x4096 (.inl rfl) rfl)
              (broadcastTo S128x4096 (shapeCast S1x4096 v45 shapeCasts_S1x4096_S1x4096) broadcasts_S1x4096_S128x4096))
            (broadcastTo S128x4096 (shapeCast S1x4096 v47 shapeCasts_S1x4096_S1x4096) broadcasts_S1x4096_S128x4096)) := rfl
  rw [e]
  simp only [addf_apply, mulf_apply, broadcastTo_1b_ab_apply, shapeCast_self]
  refine congrArg (fun z => v35 (ix2 p q) * v36 (ix2 p q) + v17 (ix2 (0 : Fin 1) q)
      + (z * v45 (ix2 (0 : Fin 1) q) + v47 (ix2 (0 : Fin 1) q))) ?_
  refine (vecNorm_apply _ _ _ _ _ _ _ _ p q).trans (rowNorm_congr _ _ (fun k => ?_) q)
  rw [proj_apply]

/-- The gate pre-activations of the block at (p, q) are the specification's gates of row p at q. -/
theorem gates_blk (x0 : Vec Ideal S128x512 .f32) (x1 : Vec Ideal S128x1024 .f32) (x3 : Vec Ideal S4096x512 .bf16)
    (x4 : Vec Ideal S4096x1024 .bf16) (x5 x6 x7 x8 x9 x10 : Vec Ideal S1x4096 .f32) (x11 x12 : Vec Ideal S1x1024 .f32)
    (p : Fin 128) (q : Fin 4096) :
    k0_pay7 (k0_pay2 x1) (k0_pay3 x4) (k0_pay4 x8) (k0_pay5 x0 x3 x5) (k0_pay6 x7) x6 x9 x10 (ix2 p q)
      = rowGates (blkParams x3 x4 x5 x6 x7 x8 x9 x10 x11 x12) (fun k => x0 (ix2 p k)) (fun k => x1 (ix2 p k)) q := by
  rw [pay7_apply, pay5_apply]
  unfold k0_pay6 k0_pay4 k0_pay3 k0_pay2
  simp only [broadcastTo_1b_ab_apply, shapeCast_self]
  rfl

/-- The new cell state of the block from its gate pre-activations. -/
theorem pay9_apply (v3 : FVec Ideal S128x1024 .bf16) (v4 : Vec Ideal S128x1024 .f32) (v8 : FVec Ideal S4096x1024 .bf16)
    (v17 : FVec Ideal S1x4096 .f32) (v35 v36 : FVec Ideal S128x4096 .f32) (v41 v45 v47 : Vec Ideal S1x4096 .f32)
    (p : Fin 128) (j : Fin 1024) :
    k0_pay9 v3 v4 v8 v17 v35 v36 v41 v45 v47 (ix2 p j)
      = cellOf (fun q => k0_pay7 v3 v8 v17 v35 v36 v41 v45 v47 (ix2 p q)) (fun j => v4 (ix2 p j)) j := by
  unfold k0_pay9 cellOf
  simp only [addf_apply, mulf_apply, logistic_apply, tanh_apply, slice2_axis1_eq]
  rfl

/-- The output gate of the block. -/
theorem pay8_apply (v3 : FVec Ideal S128x1024 .bf16) (v8 : FVec Ideal S4096x1024 .bf16)
    (v17 : FVec Ideal S1x4096 .f32) (v35 v36 : FVec Ideal S128x4096 .f32) (v41 v45 v47 : Vec Ideal S1x4096 .f32)
    (p : Fin 128) (j : Fin 1024) :
    k0_pay8 v3 v8 v17 v35 v36 v41 v45 v47 (ix2 p j)
      = Ideal.logistic (k0_pay7 v3 v8 v17 v35 v36 v41 v45 v47 (ix2 p (gate 3072 (by norm_num) j))) := by
  unfold k0_pay8
  simp only [logistic_apply, slice2_axis1_eq]
  rfl

/-- The new hidden state of the block from the output gate and the new cell state. -/
theorem pay1_apply (v79 v82 : FVec Ideal S128x1024 .f32) (v83 v85 : Vec Ideal S1x1024 .f32) (p : Fin 128) (j : Fin 1024) :
    k0_pay1 v79 v82 v83 v85 (ix2 p j)
      = v79 (ix2 p j) * Ideal.tanh (layerNorm c1024 ceps (fun k => v82 (ix2 p k)) (fun k => v83 (ix2 (0 : Fin 1) k))
          (fun k => v85 (ix2 (0 : Fin 1) k)) j) := by
  have e : k0_pay1 v79 v82 v83 v85
      = mulf v79 (tanh (addf (mulf
          (vecNorm v82 0x44800000#32 0x3727C5AC#32 reduces_S128x1024_S128 shapeCasts_S128_S128x1 broadcasts_S128x1_S128x1024 (.inl rfl) rfl)
          (broadcastTo S128x1024 (shapeCast S1x1024 v83 shapeCasts_S1x1024_S1x1024) broadcasts_S1x1024_S128x1024))
          (broadcastTo S128x1024 (shapeCast S1x1024 v85 shapeCasts_S1x1024_S1x1024) broadcasts_S1x1024_S128x1024))) := rfl
  rw [e]
  unfold layerNorm
  simp only [mulf_apply, tanh_apply, addf_apply, broadcastTo_1b_ab_apply, shapeCast_self]
  exact congrArg (fun z => v79 (ix2 p j) * Ideal.tanh (z * v83 (ix2 (0 : Fin 1) j) + v85 (ix2 (0 : Fin 1) j)))
    (vecNorm_apply _ _ _ _ _ _ _ _ p j)

/-- The block's new cell state at (p, j) is the specification's, of row p. -/
theorem cell_blk (x0 : Vec Ideal S128x512 .f32) (x1 x2 : Vec Ideal S128x1024 .f32) (x3 : Vec Ideal S4096x512 .bf16)
    (x4 : Vec Ideal S4096x1024 .bf16) (x5 x6 x7 x8 x9 x10 : Vec Ideal S1x4096 .f32) (x11 x12 : Vec Ideal S1x1024 .f32)
    (p : Fin 128) (j : Fin 1024) :
    k0_pay9 (k0_pay2 x1) x2 (k0_pay3 x4) (k0_pay4 x8) (k0_pay5 x0 x3 x5) (k0_pay6 x7) x6 x9 x10 (ix2 p j)
      = rowCell (blkParams x3 x4 x5 x6 x7 x8 x9 x10 x11 x12) (fun k => x0 (ix2 p k)) (fun k => x1 (ix2 p k))
          (fun k => x2 (ix2 p k)) j := by
  rw [pay9_apply]
  unfold rowCell
  exact congrArg (fun G => cellOf G (fun k => x2 (ix2 p k)) j)
    (funext fun q => gates_blk x0 x1 x3 x4 x5 x6 x7 x8 x9 x10 x11 x12 p q)

/-- The block's new hidden state at (p, j) is the specification's, of row p. -/
theorem hidden_blk (x0 : Vec Ideal S128x512 .f32) (x1 x2 : Vec Ideal S128x1024 .f32) (x3 : Vec Ideal S4096x512 .bf16)
    (x4 : Vec Ideal S4096x1024 .bf16) (x5 x6 x7 x8 x9 x10 : Vec Ideal S1x4096 .f32) (x11 x12 : Vec Ideal S1x1024 .f32)
    (p : Fin 128) (j : Fin 1024) :
    k0_pay1 (k0_pay8 (k0_pay2 x1) (k0_pay3 x4) (k0_pay4 x8) (k0_pay5 x0 x3 x5) (k0_pay6 x7) x6 x9 x10)
        (k0_pay9 (k0_pay2 x1) x2 (k0_pay3 x4) (k0_pay4 x8) (k0_pay5 x0 x3 x5) (k0_pay6 x7) x6 x9 x10) x11 x12 (ix2 p j)
      = rowHidden (blkParams x3 x4 x5 x6 x7 x8 x9 x10 x11 x12) (fun k => x0 (ix2 p k)) (fun k => x1 (ix2 p k))
          (fun k => x2 (ix2 p k)) j := by
  rw [pay1_apply, pay8_apply, gates_blk]
  unfold rowHidden hiddenOf
  rw [show (fun k => k0_pay9 (k0_pay2 x1) x2 (k0_pay3 x4) (k0_pay4 x8) (k0_pay5 x0 x3 x5) (k0_pay6 x7) x6 x9 x10 (ix2 p k))
      = rowCell (blkParams x3 x4 x5 x6 x7 x8 x9 x10 x11 x12) (fun k => x0 (ix2 p k)) (fun k => x1 (ix2 p k)) (fun k => x2 (ix2 p k))
    from funext fun k => cell_blk x0 x1 x2 x3 x4 x5 x6 x7 x8 x9 x10 x11 x12 p k]
  rfl

end Cert.KernelPay

end
-- ==== Proof.KernelBlock.lean ====
/-
  From the kernel's blocks to its two result arrays.

  The grid has 64 points; point t works on batch rows 128 t … 128 t + 127. The three streamed windows (input, previous
  hidden state, previous cell state) and the two result windows all hold those rows at point t; the ten parameter
  windows hold their whole arrays at every point (the weights cast to bf16, which changes no extended real, and the
  per-column vectors reshaped to one row). So what point t writes back is block t of the specification's arrays, the 64
  blocks cover all 8192 rows, and each result array ends as the specification's function of the argument arrays.
-/
import proofs.«426183_j66718021976166_3_alg».proof.Proof.Gen.KernelIdeal.Value
import proofs.«426183_j66718021976166_3_alg».proof.Proof.KernelPay
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelBlock

open Cert.KernelIdeal Cert.KernelIdeal.Gen Cert.KernelIdeal.Value Cert.LstmSpec Cert.KernelPay

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 64 grid points -/

/-- The streamed and the result windows are at block row t, block column 0, at point t. -/
theorem idx_stream : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The parameter windows are at block (0, 0) at every point. -/
theorem idx_resident : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## The streamed blocks -/

/-- Streamed window 0's block at point t is rows 128 t … 128 t + 127 of `main_arg0`. -/
theorem iblk0_apply (c : Dev nD) (t : Fin cfg0.N) (p : Fin 128) (k : Fin 512) (r : Fin 8192)
    (hr : r.val = 128 * t.val + p.val) :
    (iblk m c 0 t : Vec Ideal S128x512 .f32) (ix2 p k)
      = (m ((c : Thread nD τ).loc main_arg0) : S8192x512.Idx → EReal) (ix2 r k) := by
  have e := idx_stream t
  unfold iblk
  rw [View.read_apply]
  show V m c main_arg0 _ = _
  rw [V_main_arg0]
  congr 1
  funext a
  apply Fin.ext
  match a with
  | ⟨0, _⟩ => show win0_0.index t 0 * 128 + 1 * p.val = r.val; rw [e.1, hr]; omega
  | ⟨1, _⟩ => show win0_0.index t 1 * 512 + 1 * k.val = k.val; rw [e.2.1]; omega

/-- Streamed window 1's block at point t is rows 128 t … 128 t + 127 of `main_arg1`. -/
theorem iblk1_apply (c : Dev nD) (t : Fin cfg0.N) (p : Fin 128) (k : Fin 1024) (r : Fin 8192)
    (hr : r.val = 128 * t.val + p.val) :
    (iblk m c 1 t : Vec Ideal S128x1024 .f32) (ix2 p k)
      = (m ((c : Thread nD τ).loc main_arg1) : S8192x1024.Idx → EReal) (ix2 r k) := by
  have e := idx_stream t
  unfold iblk
  rw [View.read_apply]
  show V m c main_arg1 _ = _
  rw [V_main_arg1]
  congr 1
  funext a
  apply Fin.ext
  match a with
  | ⟨0, _⟩ => show win0_1.index t 0 * 128 + 1 * p.val = r.val; rw [e.2.2.1, hr]; omega
  | ⟨1, _⟩ => show win0_1.index t 1 * 1024 + 1 * k.val = k.val; rw [e.2.2.2.1]; omega

/-- Streamed window 2's block at point t is rows 128 t … 128 t + 127 of `main_arg2`. -/
theorem iblk2_apply (c : Dev nD) (t : Fin cfg0.N) (p : Fin 128) (k : Fin 1024) (r : Fin 8192)
    (hr : r.val = 128 * t.val + p.val) :
    (iblk m c 2 t : Vec Ideal S128x1024 .f32) (ix2 p k)
      = (m ((c : Thread nD τ).loc main_arg2) : S8192x1024.Idx → EReal) (ix2 r k) := by
  have e := idx_stream t
  unfold iblk
  rw [View.read_apply]
  show V m c main_arg2 _ = _
  rw [V_main_arg2]
  congr 1
  funext a
  apply Fin.ext
  match a with
  | ⟨0, _⟩ => show win0_2.index t 0 * 128 + 1 * p.val = r.val; rw [e.2.2.2.2.1, hr]; omega
  | ⟨1, _⟩ => show win0_2.index t 1 * 1024 + 1 * k.val = k.val; rw [e.2.2.2.2.2.1]; omega

/-! ## The weights -/

/-- Window 3's array is `main_arg3` cast to bf16 — the same extended reals — and its one block is the whole of it. -/
theorem V_w3 (c : Dev nD) : (V m c main_call0_v0 : S4096x512.Idx → EReal)
    = (m ((c : Thread nD τ).loc main_arg3) : S4096x512.Idx → EReal) := by
  dsimp only [V, hostOps0]
  after_results
  rfl

theorem iblk3_apply (c : Dev nD) (t : Fin cfg0.N) (q : Fin 4096) (k : Fin 512) :
    (iblk m c 3 t : Vec Ideal S4096x512 .bf16) (ix2 q k)
      = (m ((c : Thread nD τ).loc main_arg3) : S4096x512.Idx → EReal) (ix2 q k) := by
  have e := (idx_resident t).1
  have hemb : ((cfg0.win 3).blk t).view.emb (ix2 q k) = ix2 q k := by
    funext a; apply Fin.ext
    match a with
    | ⟨0, _⟩ => show win0_3.index t 0 * 4096 + 1 * q.val = q.val; rw [e.1]; omega
    | ⟨1, _⟩ => show win0_3.index t 1 * 512 + 1 * k.val = k.val; rw [e.2]; omega
  unfold iblk
  rw [View.read_apply, hemb]
  show V m c main_call0_v0 _ = _
  rw [V_w3]

/-- Window 4's array is `main_arg5` cast to bf16 — the same extended reals — and its one block is the whole of it. -/
theorem V_w4 (c : Dev nD) : (V m c main_call0_v1 : S4096x1024.Idx → EReal)
    = (m ((c : Thread nD τ).loc main_arg5) : S4096x1024.Idx → EReal) := by
  dsimp only [V, hostOps0]
  after_results
  rfl

theorem iblk4_apply (c : Dev nD) (t : Fin cfg0.N) (q : Fin 4096) (k : Fin 1024) :
    (iblk m c 4 t : Vec Ideal S4096x1024 .bf16) (ix2 q k)
      = (m ((c : Thread nD τ).loc main_arg5) : S4096x1024.Idx → EReal) (ix2 q k) := by
  have e := (idx_resident t).2.1
  have hemb : ((cfg0.win 4).blk t).view.emb (ix2 q k) = ix2 q k := by
    funext a; apply Fin.ext
    match a with
    | ⟨0, _⟩ => show win0_4.index t 0 * 4096 + 1 * q.val = q.val; rw [e.1]; omega
    | ⟨1, _⟩ => show win0_4.index t 1 * 1024 + 1 * k.val = k.val; rw [e.2]; omega
  unfold iblk
  rw [View.read_apply, hemb]
  show V m c main_call0_v1 _ = _
  rw [V_w4]

/-! ## The per-column vectors -/

/-- Window 5's array is `main_arg4` reshaped to one row, and its one block is the whole of it. -/
theorem V_w5 (c : Dev nD) : (V m c main_call0_v2 : S1x4096.Idx → EReal)
    = shapeCast S1x4096 (m ((c : Thread nD τ).loc main_arg4) : S4096.Idx → EReal) shapeCasts_S4096_S1x4096 := by
  dsimp only [V, hostOps0]
  after_results
  rfl

theorem iblk5_apply (c : Dev nD) (t : Fin cfg0.N) (q : Fin 4096) :
    (iblk m c 5 t : Vec Ideal S1x4096 .f32) (ix2 (0 : Fin 1) q)
      = (m ((c : Thread nD τ).loc main_arg4) : S4096.Idx → EReal) (ix1 q) := by
  have e := (idx_resident t).2.2.1
  have hemb : ((cfg0.win 5).blk t).view.emb (ix2 (0 : Fin 1) q) = ix2 (0 : Fin 1) q := by
    funext a; apply Fin.ext
    match a with
    | ⟨0, _⟩ => show win0_5.index t 0 * 1 + 1 * 0 = 0; rw [e.1]
    | ⟨1, _⟩ => show win0_5.index t 1 * 4096 + 1 * q.val = q.val; rw [e.2]; omega
  unfold iblk
  rw [View.read_apply, hemb]
  show V m c main_call0_v2 _ = _
  rw [V_w5, shapeCast_a_1a_apply]

/-- Window 6's array is `main_arg6` reshaped to one row, and its one block is the whole of it. -/
theorem V_w6 (c : Dev nD) : (V m c main_call0_v3 : S1x4096.Idx → EReal)
    = shapeCast S1x4096 (m ((c : Thread nD τ).loc main_arg6) : S4096.Idx → EReal) shapeCasts_S4096_S1x4096 := by
  dsimp only [V, hostOps0]
  after_results
  rfl

theorem iblk6_apply (c : Dev nD) (t : Fin cfg0.N) (q : Fin 4096) :
    (iblk m c 6 t : Vec Ideal S1x4096 .f32) (ix2 (0 : Fin 1) q)
      = (m ((c : Thread nD τ).loc main_arg6) : S4096.Idx → EReal) (ix1 q) := by
  have e := (idx_resident t).2.2.2.1
  have hemb : ((cfg0.win 6).blk t).view.emb (ix2 (0 : Fin 1) q) = ix2 (0 : Fin 1) q := by
    funext a; apply Fin.ext
    match a with
    | ⟨0, _⟩ => show win0_6.index t 0 * 1 + 1 * 0 = 0; rw [e.1]
    | ⟨1, _⟩ => show win0_6.index t 1 * 4096 + 1 * q.val = q.val; rw [e.2]; omega
  unfold iblk
  rw [View.read_apply, hemb]
  show V m c main_call0_v3 _ = _
  rw [V_w6, shapeCast_a_1a_apply]

/-- Window 7's array is `main_arg7` reshaped to one row, and its one block is the whole of it. -/
theorem V_w7 (c : Dev nD) : (V m c main_call0_v4 : S1x4096.Idx → EReal)
    = shapeCast S1x4096 (m ((c : Thread nD τ).loc main_arg7) : S4096.Idx → EReal) shapeCasts_S4096_S1x4096 := by
  dsimp only [V, hostOps0]
  after_results
  rfl

theorem iblk7_apply (c : Dev nD) (t : Fin cfg0.N) (q : Fin 4096) :
    (iblk m c 7 t : Vec Ideal S1x4096 .f32) (ix2 (0 : Fin 1) q)
      = (m ((c : Thread nD τ).loc main_arg7) : S4096.Idx → EReal) (ix1 q) := by
  have e := (idx_resident t).2.2.2.2.1
  have hemb : ((cfg0.win 7).blk t).view.emb (ix2 (0 : Fin 1) q) = ix2 (0 : Fin 1) q := by
    funext a; apply Fin.ext
    match a with
    | ⟨0, _⟩ => show win0_7.index t 0 * 1 + 1 * 0 = 0; rw [e.1]
    | ⟨1, _⟩ => show win0_7.index t 1 * 4096 + 1 * q.val = q.val; rw [e.2]; omega
  unfold iblk
  rw [View.read_apply, hemb]
  show V m c main_call0_v4 _ = _
  rw [V_w7, shapeCast_a_1a_apply]

/-- Window 8's array is `main_arg8` reshaped to one row, and its one block is the whole of it. -/
theorem V_w8 (c : Dev nD) : (V m c main_call0_v5 : S1x4096.Idx → EReal)
    = shapeCast S1x4096 (m ((c : Thread nD τ).loc main_arg8) : S4096.Idx → EReal) shapeCasts_S4096_S1x4096 := by
  dsimp only [V, hostOps0]
  after_results
  rfl

theorem iblk8_apply (c : Dev nD) (t : Fin cfg0.N) (q : Fin 4096) :
    (iblk m c 8 t : Vec Ideal S1x4096 .f32) (ix2 (0 : Fin 1) q)
      = (m ((c : Thread nD τ).loc main_arg8) : S4096.Idx → EReal) (ix1 q) := by
  have e := (idx_resident t).2.2.2.2.2.1
  have hemb : ((cfg0.win 8).blk t).view.emb (ix2 (0 : Fin 1) q) = ix2 (0 : Fin 1) q := by
    funext a; apply Fin.ext
    match a with
    | ⟨0, _⟩ => show win0_8.index t 0 * 1 + 1 * 0 = 0; rw [e.1]
    | ⟨1, _⟩ => show win0_8.index t 1 * 4096 + 1 * q.val = q.val; rw [e.2]; omega
  unfold iblk
  rw [View.read_apply, hemb]
  show V m c main_call0_v5 _ = _
  rw [V_w8, shapeCast_a_1a_apply]

/-- Window 9's array is `main_arg9` reshaped to one row, and its one block is the whole of it. -/
theorem V_w9 (c : Dev nD) : (V m c main_call0_v6 : S1x4096.Idx → EReal)
    = shapeCast S1x4096 (m ((c : Thread nD τ).loc main_arg9) : S4096.Idx → EReal) shapeCasts_S4096_S1x4096 := by
  dsimp only [V, hostOps0]
  after_results
  rfl

theorem iblk9_apply (c : Dev nD) (t : Fin cfg0.N) (q : Fin 4096) :
    (iblk m c 9 t : Vec Ideal S1x4096 .f32) (ix2 (0 : Fin 1) q)
      = (m ((c : Thread nD τ).loc main_arg9) : S4096.Idx → EReal) (ix1 q) := by
  have e := (idx_resident t).2.2.2.2.2.2.1
  have hemb : ((cfg0.win 9).blk t).view.emb (ix2 (0 : Fin 1) q) = ix2 (0 : Fin 1) q := by
    funext a; apply Fin.ext
    match a with
    | ⟨0, _⟩ => show win0_9.index t 0 * 1 + 1 * 0 = 0; rw [e.1]
    | ⟨1, _⟩ => show win0_9.index t 1 * 4096 + 1 * q.val = q.val; rw [e.2]; omega
  unfold iblk
  rw [View.read_apply, hemb]
  show V m c main_call0_v6 _ = _
  rw [V_w9, shapeCast_a_1a_apply]

/-- Window 10's array is `main_arg10` reshaped to one row, and its one block is the whole of it. -/
theorem V_w10 (c : Dev nD) : (V m c main_call0_v7 : S1x4096.Idx → EReal)
    = shapeCast S1x4096 (m ((c : Thread nD τ).loc main_arg10) : S4096.Idx → EReal) shapeCasts_S4096_S1x4096 := by
  dsimp only [V, hostOps0]
  after_results
  rfl

theorem iblk10_apply (c : Dev nD) (t : Fin cfg0.N) (q : Fin 4096) :
    (iblk m c 10 t : Vec Ideal S1x4096 .f32) (ix2 (0 : Fin 1) q)
      = (m ((c : Thread nD τ).loc main_arg10) : S4096.Idx → EReal) (ix1 q) := by
  have e := (idx_resident t).2.2.2.2.2.2.2.1
  have hemb : ((cfg0.win 10).blk t).view.emb (ix2 (0 : Fin 1) q) = ix2 (0 : Fin 1) q := by
    funext a; apply Fin.ext
    match a with
    | ⟨0, _⟩ => show win0_10.index t 0 * 1 + 1 * 0 = 0; rw [e.1]
    | ⟨1, _⟩ => show win0_10.index t 1 * 4096 + 1 * q.val = q.val; rw [e.2]; omega
  unfold iblk
  rw [View.read_apply, hemb]
  show V m c main_call0_v7 _ = _
  rw [V_w10, shapeCast_a_1a_apply]

/-- Window 11's array is `main_arg11` reshaped to one row, and its one block is the whole of it. -/
theorem V_w11 (c : Dev nD) : (V m c main_call0_v8 : S1x1024.Idx → EReal)
    = shapeCast S1x1024 (m ((c : Thread nD τ).loc main_arg11) : S1024.Idx → EReal) shapeCasts_S1024_S1x1024 := by
  dsimp only [V, hostOps0]
  after_results
  rfl

theorem iblk11_apply (c : Dev nD) (t : Fin cfg0.N) (q : Fin 1024) :
    (iblk m c 11 t : Vec Ideal S1x1024 .f32) (ix2 (0 : Fin 1) q)
      = (m ((c : Thread nD τ).loc main_arg11) : S1024.Idx → EReal) (ix1 q) := by
  have e := (idx_resident t).2.2.2.2.2.2.2.2.1
  have hemb : ((cfg0.win 11).blk t).view.emb (ix2 (0 : Fin 1) q) = ix2 (0 : Fin 1) q := by
    funext a; apply Fin.ext
    match a with
    | ⟨0, _⟩ => show win0_11.index t 0 * 1 + 1 * 0 = 0; rw [e.1]
    | ⟨1, _⟩ => show win0_11.index t 1 * 1024 + 1 * q.val = q.val; rw [e.2]; omega
  unfold iblk
  rw [View.read_apply, hemb]
  show V m c main_call0_v8 _ = _
  rw [V_w11, shapeCast_a_1a_apply]

/-- Window 12's array is `main_arg12` reshaped to one row, and its one block is the whole of it. -/
theorem V_w12 (c : Dev nD) : (V m c main_call0_v9 : S1x1024.Idx → EReal)
    = shapeCast S1x1024 (m ((c : Thread nD τ).loc main_arg12) : S1024.Idx → EReal) shapeCasts_S1024_S1x1024 := by
  dsimp only [V, hostOps0]
  after_results
  rfl

theorem iblk12_apply (c : Dev nD) (t : Fin cfg0.N) (q : Fin 1024) :
    (iblk m c 12 t : Vec Ideal S1x1024 .f32) (ix2 (0 : Fin 1) q)
      = (m ((c : Thread nD τ).loc main_arg12) : S1024.Idx → EReal) (ix1 q) := by
  have e := (idx_resident t).2.2.2.2.2.2.2.2.2
  have hemb : ((cfg0.win 12).blk t).view.emb (ix2 (0 : Fin 1) q) = ix2 (0 : Fin 1) q := by
    funext a; apply Fin.ext
    match a with
    | ⟨0, _⟩ => show win0_12.index t 0 * 1 + 1 * 0 = 0; rw [e.1]
    | ⟨1, _⟩ => show win0_12.index t 1 * 1024 + 1 * q.val = q.val; rw [e.2]; omega
  unfold iblk
  rw [View.read_apply, hemb]
  show V m c main_call0_v9 _ = _
  rw [V_w12, shapeCast_a_1a_apply]

/-! ## The specification's data, read off the memory at launch -/

/-- The parameters as the argument arrays hold them. -/
def P (c : Dev nD) : Params :=
  arrParams (m ((c : Thread nD τ).loc main_arg3) : S4096x512.Idx → EReal) (m ((c : Thread nD τ).loc main_arg4) : S4096.Idx → EReal)
    (m ((c : Thread nD τ).loc main_arg5) : S4096x1024.Idx → EReal) (m ((c : Thread nD τ).loc main_arg6) : S4096.Idx → EReal)
    (m ((c : Thread nD τ).loc main_arg7) : S4096.Idx → EReal) (m ((c : Thread nD τ).loc main_arg8) : S4096.Idx → EReal)
    (m ((c : Thread nD τ).loc main_arg9) : S4096.Idx → EReal) (m ((c : Thread nD τ).loc main_arg10) : S4096.Idx → EReal)
    (m ((c : Thread nD τ).loc main_arg11) : S1024.Idx → EReal) (m ((c : Thread nD τ).loc main_arg12) : S1024.Idx → EReal)

/-- The new hidden state and the new cell state of the whole batch, of the argument arrays. -/
def hiddenOut (c : Dev nD) : S8192x1024.Idx → EReal :=
  hiddenArr (P m c) (m ((c : Thread nD τ).loc main_arg0) : S8192x512.Idx → EReal)
    (m ((c : Thread nD τ).loc main_arg1) : S8192x1024.Idx → EReal) (m ((c : Thread nD τ).loc main_arg2) : S8192x1024.Idx → EReal)

def cellOut (c : Dev nD) : S8192x1024.Idx → EReal :=
  cellArr (P m c) (m ((c : Thread nD τ).loc main_arg0) : S8192x512.Idx → EReal)
    (m ((c : Thread nD τ).loc main_arg1) : S8192x1024.Idx → EReal) (m ((c : Thread nD τ).loc main_arg2) : S8192x1024.Idx → EReal)

/-- The parameter blocks at any point are the parameters. -/
theorem params_eq (c : Dev nD) (t : Fin cfg0.N) :
    blkParams (iblk m c 3 t) (iblk m c 4 t) (iblk m c 5 t) (iblk m c 6 t) (iblk m c 7 t) (iblk m c 8 t) (iblk m c 9 t) (iblk m c 10 t) (iblk m c 11 t) (iblk m c 12 t) = P m c := by
  unfold blkParams P arrParams
  simp only [iblk3_apply m c t, iblk4_apply m c t, iblk5_apply m c t, iblk6_apply m c t, iblk7_apply m c t,
    iblk8_apply m c t, iblk9_apply m c t, iblk10_apply m c t, iblk11_apply m c t, iblk12_apply m c t]

/-! ## What a point writes back -/

/-- The block payloads over a block index of the literal type. -/
theorem cell_at (x0 : Vec Ideal S128x512 .f32) (x1 x2 : Vec Ideal S128x1024 .f32) (x3 : Vec Ideal S4096x512 .bf16)
    (x4 : Vec Ideal S4096x1024 .bf16) (x5 x6 x7 x8 x9 x10 : Vec Ideal S1x4096 .f32) (x11 x12 : Vec Ideal S1x1024 .f32)
    (y : S128x1024.Idx) :
    k0_pay9 (k0_pay2 x1) x2 (k0_pay3 x4) (k0_pay4 x8) (k0_pay5 x0 x3 x5) (k0_pay6 x7) x6 x9 x10 y
      = rowCell (blkParams x3 x4 x5 x6 x7 x8 x9 x10 x11 x12) (fun k => x0 (ix2 (y 0) k)) (fun k => x1 (ix2 (y 0) k))
          (fun k => x2 (ix2 (y 0) k)) (y 1) := by
  obtain ⟨p, j, rfl⟩ : ∃ (p : Fin 128) (j : Fin 1024), y = ix2 p j := ⟨y 0, y 1, eq_ix2 y⟩
  exact cell_blk x0 x1 x2 x3 x4 x5 x6 x7 x8 x9 x10 x11 x12 p j

theorem hidden_at (x0 : Vec Ideal S128x512 .f32) (x1 x2 : Vec Ideal S128x1024 .f32) (x3 : Vec Ideal S4096x512 .bf16)
    (x4 : Vec Ideal S4096x1024 .bf16) (x5 x6 x7 x8 x9 x10 : Vec Ideal S1x4096 .f32) (x11 x12 : Vec Ideal S1x1024 .f32)
    (y : S128x1024.Idx) :
    k0_pay1 (k0_pay8 (k0_pay2 x1) (k0_pay3 x4) (k0_pay4 x8) (k0_pay5 x0 x3 x5) (k0_pay6 x7) x6 x9 x10)
        (k0_pay9 (k0_pay2 x1) x2 (k0_pay3 x4) (k0_pay4 x8) (k0_pay5 x0 x3 x5) (k0_pay6 x7) x6 x9 x10) x11 x12 y
      = rowHidden (blkParams x3 x4 x5 x6 x7 x8 x9 x10 x11 x12) (fun k => x0 (ix2 (y 0) k)) (fun k => x1 (ix2 (y 0) k))
          (fun k => x2 (ix2 (y 0) k)) (y 1) := by
  obtain ⟨p, j, rfl⟩ : ∃ (p : Fin 128) (j : Fin 1024), y = ix2 p j := ⟨y 0, y 1, eq_ix2 y⟩
  exact hidden_blk x0 x1 x2 x3 x4 x5 x6 x7 x8 x9 x10 x11 x12 p j

/-- The three streamed rows under block row p of point t are the batch row 128 t + p of the arguments. -/
theorem rows_eq (c : Dev nD) (t : Fin cfg0.N) (p : Fin 128) (r : Fin 8192) (hr : r.val = 128 * t.val + p.val) :
    (fun k => (iblk m c 0 t : Vec Ideal S128x512 .f32) (ix2 p k))
        = (fun k => (m ((c : Thread nD τ).loc main_arg0) : S8192x512.Idx → EReal) (ix2 r k))
    ∧ (fun k => (iblk m c 1 t : Vec Ideal S128x1024 .f32) (ix2 p k))
        = (fun k => (m ((c : Thread nD τ).loc main_arg1) : S8192x1024.Idx → EReal) (ix2 r k))
    ∧ (fun k => (iblk m c 2 t : Vec Ideal S128x1024 .f32) (ix2 p k))
        = (fun k => (m ((c : Thread nD τ).loc main_arg2) : S8192x1024.Idx → EReal) (ix2 r k)) :=
  ⟨funext fun k => iblk0_apply m c t p k r hr, funext fun k => iblk1_apply m c t p k r hr,
    funext fun k => iblk2_apply m c t p k r hr⟩

/-- Point t writes block t of the new cell state back. -/
theorem flushed14_eq (c : Dev nD) (t : Fin cfg0.N) :
    (dats m 0 c).flushed 14 t = ((cfg0.win 14).blk t).view.read (Elt Ideal) (cellOut m c) := by
  rw [flushed14]
  unfold out0_14
  rw [View.canon_unit_zero hz]
  simp only [View.ld_unit_zero (S := S128x512) hz, View.ld_unit_zero (S := S128x1024) hz, View.ld_unit_zero (S := S4096x512) hz,
    View.ld_unit_zero (S := S4096x1024) hz, View.ld_unit_zero (S := S1x4096) hz]
  funext j
  have e := idx_stream t
  have hr : ((((cfg0.win 14).blk t).view.emb j) 0).val = 128 * t.val + (j 0).val := by
    show win0_14.index t 0 * 128 + 1 * (j 0).val = _
    rw [e.2.2.2.2.2.2.2.2.1]; omega
  have hc : (((cfg0.win 14).blk t).view.emb j) 1 = j 1 := Fin.ext (by
    show win0_14.index t 1 * 1024 + 1 * (j 1).val = (j 1).val
    rw [e.2.2.2.2.2.2.2.2.2]; omega)
  obtain ⟨h0, h1, h2⟩ := rows_eq m c t (j 0) ((((cfg0.win 14).blk t).view.emb j) 0) hr
  refine (cell_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j).trans ?_
  rw [params_eq, h0, h1, h2, ← hc]
  rfl

/-- Point t writes block t of the new hidden state back. -/
theorem flushed13_eq (c : Dev nD) (t : Fin cfg0.N) :
    (dats m 0 c).flushed 13 t = ((cfg0.win 13).blk t).view.read (Elt Ideal) (hiddenOut m c) := by
  rw [flushed13]
  unfold out0_13
  rw [View.canon_unit_zero hz]
  simp only [View.ld_unit_zero (S := S128x512) hz, View.ld_unit_zero (S := S128x1024) hz, View.ld_unit_zero (S := S4096x512) hz,
    View.ld_unit_zero (S := S4096x1024) hz, View.ld_unit_zero (S := S1x4096) hz, View.ld_unit_zero (S := S1x1024) hz]
  funext j
  have e := idx_stream t
  have hr : ((((cfg0.win 13).blk t).view.emb j) 0).val = 128 * t.val + (j 0).val := by
    show win0_13.index t 0 * 128 + 1 * (j 0).val = _
    rw [e.2.2.2.2.2.2.1]; omega
  have hc : (((cfg0.win 13).blk t).view.emb j) 1 = j 1 := Fin.ext (by
    show win0_13.index t 1 * 1024 + 1 * (j 1).val = (j 1).val
    rw [e.2.2.2.2.2.2.2.1]; omega)
  obtain ⟨h0, h1, h2⟩ := rows_eq m c t (j 0) ((((cfg0.win 13).blk t).view.emb j) 0) hr
  refine (hidden_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j).trans ?_
  rw [params_eq, h0, h1, h2, ← hc]
  rfl

/-! ## The 64 blocks cover the 8192 rows -/

theorem mem_blk13 (t : Fin cfg0.N) (i : S8192x1024.Idx) :
    i ∈ ((cfg0.win 13).blk t).view.set ↔ ∀ a : Fin 2, win0_13.index t a * S128x1024.size a ≤ (i a).val
      ∧ (i a).val < win0_13.index t a * S128x1024.size a + S128x1024.size a := by
  show i ∈ ((View.whole main_v0_0).slice (win0_13.rect t)).set ↔ _
  rw [View.set_slice_whole, Rect.mem_set_unit]
  exact Iff.rfl

theorem mem_blk14 (t : Fin cfg0.N) (i : S8192x1024.Idx) :
    i ∈ ((cfg0.win 14).blk t).view.set ↔ ∀ a : Fin 2, win0_14.index t a * S128x1024.size a ≤ (i a).val
      ∧ (i a).val < win0_14.index t a * S128x1024.size a + S128x1024.size a := by
  show i ∈ ((View.whole main_v0_1).slice (win0_14.rect t)).set ↔ _
  rw [View.set_slice_whole, Rect.mem_set_unit]
  exact Iff.rfl

/-- Row r lies in the block of point r / 128. -/
def pointOf (i : S8192x1024.Idx) : Fin cfg0.N :=
  ⟨(i 0).val / 128, by
    have h0 : (i 0).val < 8192 := (i 0).isLt
    rw [show cfg0.N = 64 from N_0]; omega⟩

theorem cover13 (i : S8192x1024.Idx) : ∃ t : Fin cfg0.N, (cfg0.win 13).flush t = true ∧ i ∈ ((cfg0.win 13).blk t).view.set := by
  refine ⟨pointOf i, flush0_13 _, ?_⟩
  rw [mem_blk13]
  have e := idx_stream (pointOf i)
  have h0 : (i 0).val < 8192 := (i 0).isLt
  have h1 : (i 1).val < 1024 := (i 1).isLt
  have hp : (pointOf i).val = (i 0).val / 128 := rfl
  intro a
  match a with
  | ⟨0, _⟩ =>
    show win0_13.index (pointOf i) 0 * 128 ≤ (i 0).val ∧ (i 0).val < win0_13.index (pointOf i) 0 * 128 + 128
    rw [e.2.2.2.2.2.2.1, hp]; omega
  | ⟨1, _⟩ =>
    show win0_13.index (pointOf i) 1 * 1024 ≤ (i 1).val ∧ (i 1).val < win0_13.index (pointOf i) 1 * 1024 + 1024
    rw [e.2.2.2.2.2.2.2.1]; omega

theorem cover14 (i : S8192x1024.Idx) : ∃ t : Fin cfg0.N, (cfg0.win 14).flush t = true ∧ i ∈ ((cfg0.win 14).blk t).view.set := by
  refine ⟨pointOf i, flush0_14 _, ?_⟩
  rw [mem_blk14]
  have e := idx_stream (pointOf i)
  have h0 : (i 0).val < 8192 := (i 0).isLt
  have h1 : (i 1).val < 1024 := (i 1).isLt
  have hp : (pointOf i).val = (i 0).val / 128 := rfl
  intro a
  match a with
  | ⟨0, _⟩ =>
    show win0_14.index (pointOf i) 0 * 128 ≤ (i 0).val ∧ (i 0).val < win0_14.index (pointOf i) 0 * 128 + 128
    rw [e.2.2.2.2.2.2.2.2.1, hp]; omega
  | ⟨1, _⟩ =>
    show win0_14.index (pointOf i) 1 * 1024 ≤ (i 1).val ∧ (i 1).val < win0_14.index (pointOf i) 1 * 1024 + 1024
    rw [e.2.2.2.2.2.2.2.2.2]; omega

/-! ## The result arrays and the run -/

theorem final13 (c : Dev nD) : (dats m 0 c).arrAt 13 cfg0.N = hiddenOut m c :=
  (dats m 0 c).arrAt_eq_of_cover 13 (hiddenOut m c) (fun t _ => flushed13_eq m c t) cover13

theorem final14 (c : Dev nD) : (dats m 0 c).arrAt 14 cfg0.N = cellOut m c :=
  (dats m 0 c).arrAt_eq_of_cover 14 (cellOut m c) (fun t _ => flushed14_eq m c t) cover14

/-- Every weakly fair execution of the idealized kernel ends with the two result arrays at the specification's new hidden
    and cell states of the argument arrays, the arguments unchanged. -/
theorem run : θ_run defs (onTc (τ := τ) (main (F := Ideal))) ⟨m, fun _ => 0, ρ⟩ fun r => ∀ c : Dev nD,
      r.2.mem ((c : Thread nD τ).loc main_v0_0) = hiddenOut m c
      ∧ r.2.mem ((c : Thread nD τ).loc main_v0_1) = cellOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final13 m c), (h c).2.1.trans (final14 m c), (h c).2.2⟩)
    (Cert.KernelIdeal.Value.run_blocks m ρ)

end Cert.KernelBlock

end
-- ==== Proof.LibDotAt.lean ====
/-
  The host's `dot_general` of an [M, K] array with a [K, N] array, read at an output index at the ideal instance: the
  plain sum of products over the contracted axis,
      out (p, q) = ∑ k, l (p, k) · r (k, q),
  and, when the right operand is the transpose of an [N, K] array W (jnp's `x @ W.T`),
      out (p, q) = ∑ k, l (p, k) · W (q, k):
  the same sum a kernel's matmul contracting the last axes of both operands computes.
-/
import proofs.«426183_j66718021976166_3_alg».proof.Proof.LibMatmulAt
import Idealize.ShloMosaic.Lib.ValueLayout

noncomputable section

open scoped BigOperators

namespace Idealize.ShloMosaic.DotAt

open Idealize.ShloMosaic Idealize.ShloMosaic.ValueIdx Idealize.ShloMosaic.MatmulAt

variable {M K N : Nat}

/-- `out (p, q) = ∑ k, l (p, k) · r (k, q)`, whatever the precision and the schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

/-- Against a transposed [N, K] array: `out (p, q) = ∑ k, l (p, k) · W (q, k)`. -/
theorem dotGeneral_transpose_apply {φ₁ φ₂ : FTy} (prec : Option ContractPrecision) (sched : HostSchedule)
    (l : FVec Ideal ⟨2, ![M, K]⟩ φ₁) (W : FVec Ideal ⟨2, ![N, K]⟩ φ₂)
    (h : (⟨2, ![N, K]⟩ : Shape).Transposes [1, 0] ⟨2, ![K, N]⟩) (p : Fin M) (q : Fin N) :
    FloatOps.dotGeneral (DotDims.plain M K N) prec sched l (transpose ⟨2, ![K, N]⟩ [1, 0] W h) (ix2 p q)
      = ∑ k : Fin K, l (ix2 p k) * W (ix2 q k) := by
  rw [dotGeneral_plain_apply]
  exact Finset.sum_congr rfl fun k _ => by rw [transpose_ix2_apply]

end Idealize.ShloMosaic.DotAt

end
-- ==== Proof.RefStages.lean ====
/-
  The reference's stages, read at an index of the whole batch.

  jnp computes the cell on whole arrays of 8192 rows: `x @ Wi.T + bi` is a `dot_general` against the transposed weights
  plus the bias broadcast twice ([4096] → [1, 4096] → [8192, 4096]); each LayerNorm is the host form of `rowNorm`
  scaled and shifted; the sigmoid is spelt `1 / (1 + exp(−z))`, which is the logistic function on every extended real
  (the word 0x3F800000 denotes 1). Read at (r, ·), every stage depends only on row r of the three batch arrays and is the
  specification's row function of that row — the same functions the kernel's block gives.
-/
import proofs.«426183_j66718021976166_3_alg».proof.Proof.Gen.ReferenceIdeal
import proofs.«426183_j66718021976166_3_alg».proof.Proof.LstmSpec
import proofs.«426183_j66718021976166_3_alg».proof.Proof.LibDotAt
import Idealize.ShloMosaic.Lib.ValueLayout
import Idealize.ShloMosaic.PureOps.IdealRules

noncomputable section

open scoped BigOperators

namespace Cert.RefStages

open Idealize.ShloMosaic Idealize.ShloMosaic.ValueIdx Idealize.ShloMosaic.RowOps Idealize.ShloMosaic.LayerNormAt
open Idealize.ShloMosaic.DotAt Cert.ReferenceIdeal Cert.ReferenceIdeal.Gen Cert.LstmSpec

/-- The f32 word of 1.0 denotes the extended real 1. -/
theorem one_word : Ideal.ofBits .f32 0x3F800000#32 = 1 := IdealRules.sign_bit.ideal_onePat .f32

/-- jnp's spelling of the sigmoid is the logistic function. -/
theorem sigmoid_eq (z : EReal) :
    Ideal.div (Ideal.ofBits .f32 0x3F800000#32) (Ideal.ofBits .f32 0x3F800000#32 + Ideal.exp (-z)) = Ideal.logistic z := by
  rw [one_word]; rfl

theorem reduces4096 : S8192x4096.Reduces [1] S8192 := by decide
theorem reduces1024 : S8192x1024.Reduces [1] S8192 := by decide

/-! ## A projection -/

/-- `l @ W.T + b` at (r, q) is `affine` of row r at q. -/
theorem hostProj_apply {K : Nat} (l : FVec Ideal ⟨2, ![8192, K]⟩ .f32) (W : FVec Ideal ⟨2, ![4096, K]⟩ .f32)
    (b : FVec Ideal ⟨1, ![4096]⟩ .f32) (ht : (⟨2, ![4096, K]⟩ : Shape).Transposes [1, 0] ⟨2, ![K, 4096]⟩)
    (r : Fin 8192) (q : Fin 4096) :
    addf (Host.dotGeneral (DotDims.plain 8192 K 4096) none l (transpose ⟨2, ![K, 4096]⟩ [1, 0] W ht))
        (broadcastInDim S8192x4096 ![0, 1] bcast_S1x4096_S8192x4096_0_1 (broadcastInDim S1x4096 ![1] bcast_S4096_S1x4096_1 b))
        (ix2 r q)
      = affine (fun k => l (ix2 r k)) (fun n k => W (ix2 n k)) (fun n => b (ix1 n)) q := by
  rw [addf_apply, bcastInDim_rows_apply, bcastInDim_row_apply]
  show FloatOps.dotGeneral _ _ _ _ _ _ + _ = _
  rw [dotGeneral_transpose_apply]
  rfl

/-! ## The stages over variable arrays -/

section Stages

variable (x : FVec Ideal S8192x512 .f32) (h c : FVec Ideal S8192x1024 .f32)
  (Wi : FVec Ideal S4096x512 .f32) (bi : FVec Ideal S4096 .f32) (Wh : FVec Ideal S4096x1024 .f32)
  (bh gi βi gh βh : FVec Ideal S4096 .f32) (gc βc : FVec Ideal S1024 .f32)

/-- A [8192, 4096] array normalised row by row, scaled and shifted by two [4096] vectors. -/
def lnWide (A : FVec Ideal S8192x4096 .f32) (g β : FVec Ideal S4096 .f32) : FVec Ideal S8192x4096 .f32 :=
  addf (mulf (hostNorm A 0x45800000#32 0x3727C5AC#32 reducesTo_S8192x4096_S8192_d1 h_S_ bcast_S8192_S8192x1_0 bcast_S_S8192x1
        bcast_S8192x1_S8192x4096_0_1)
      (broadcastInDim S8192x4096 ![0, 1] bcast_S1x4096_S8192x4096_0_1 (broadcastInDim S1x4096 ![1] bcast_S4096_S1x4096_1 g)))
    (broadcastInDim S8192x4096 ![0, 1] bcast_S1x4096_S8192x4096_0_1 (broadcastInDim S1x4096 ![1] bcast_S4096_S1x4096_1 β))

theorem lnWide_apply (A : FVec Ideal S8192x4096 .f32) (g β : FVec Ideal S4096 .f32) (r : Fin 8192) (q : Fin 4096) :
    lnWide A g β (ix2 r q)
      = layerNorm c4096 ceps (fun k => A (ix2 r k)) (fun k => g (ix1 k)) (fun k => β (ix1 k)) q := by
  unfold lnWide layerNorm
  rw [addf_apply, mulf_apply, hostNorm_apply _ _ _ _ _ _ _ _ reduces4096, bcastInDim_rows_apply, bcastInDim_row_apply,
    bcastInDim_rows_apply, bcastInDim_row_apply]

/-- The two projections. -/
def preIn : FVec Ideal S8192x4096 .f32 :=
  addf (Host.dotGeneral dot_S8192x512_S512x4096_S8192x4096_1_0_0_1_n_n none x
      (transpose S512x4096 [1, 0] Wi transposes_S4096x512_S512x4096_1_0))
    (broadcastInDim S8192x4096 ![0, 1] bcast_S1x4096_S8192x4096_0_1 (broadcastInDim S1x4096 ![1] bcast_S4096_S1x4096_1 bi))

def preHid : FVec Ideal S8192x4096 .f32 :=
  addf (Host.dotGeneral dot_S8192x1024_S1024x4096_S8192x4096_1_0_0_1_n_n none h
      (transpose S1024x4096 [1, 0] Wh transposes_S4096x1024_S1024x4096_1_0))
    (broadcastInDim S8192x4096 ![0, 1] bcast_S1x4096_S8192x4096_0_1 (broadcastInDim S1x4096 ![1] bcast_S4096_S1x4096_1 bh))

/-- The gate pre-activations of the whole batch. -/
def gatesArr : FVec Ideal S8192x4096 .f32 :=
  addf (lnWide (preIn x Wi bi) gi βi) (lnWide (preHid h Wh bh) gh βh)

theorem gatesArr_apply (r : Fin 8192) (q : Fin 4096) :
    gatesArr x h Wi bi Wh bh gi βi gh βh (ix2 r q)
      = rowGates (arrParams Wi bi Wh bh gi βi gh βh gc βc) (fun k => x (ix2 r k)) (fun k => h (ix2 r k)) q := by
  unfold gatesArr rowGates
  rw [addf_apply, lnWide_apply, lnWide_apply]
  have e1 : ∀ k, preIn x Wi bi (ix2 r k)
      = affine (fun k => x (ix2 r k)) (fun n k => Wi (ix2 n k)) (fun n => bi (ix1 n)) k := fun k =>
    hostProj_apply (K := 512) x Wi bi transposes_S4096x512_S512x4096_1_0 r k
  have e2 : ∀ k, preHid h Wh bh (ix2 r k)
      = affine (fun k => h (ix2 r k)) (fun n k => Wh (ix2 n k)) (fun n => bh (ix1 n)) k := fun k =>
    hostProj_apply (K := 1024) h Wh bh transposes_S4096x1024_S1024x4096_1_0 r k
  rw [funext e1, funext e2]
  rfl

/-- jnp's sigmoid of a [8192, 1024] array. -/
def sigm (Z : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf Z)))

theorem sigm_apply (Z : FVec Ideal S8192x1024 .f32) (i : S8192x1024.Idx) : sigm Z i = Ideal.logistic (Z i) := by
  unfold sigm
  rw [hostDivf_apply, addf_apply, bcastInDim_scalar_apply, constant_apply, hostExp_apply, hostNegf_apply, sigmoid_eq]

/-- The new cell state of the whole batch from the gates. -/
def cellArrOf (G : FVec Ideal S8192x4096 .f32) : FVec Ideal S8192x1024 .f32 :=
  addf (mulf (sigm (extractStridedSlice S8192x1024 ![0, 1024] G slices_S8192x4096_S8192x1024_0_1024)) c)
    (mulf (sigm (extractStridedSlice S8192x1024 ![0, 0] G slices_S8192x4096_S8192x1024_0_0))
      (Host.tanh (extractStridedSlice S8192x1024 ![0, 2048] G slices_S8192x4096_S8192x1024_0_2048)))

theorem cellArrOf_apply (G : FVec Ideal S8192x4096 .f32) (r : Fin 8192) (j : Fin 1024) :
    cellArrOf c G (ix2 r j) = cellOf (fun q => G (ix2 r q)) (fun j => c (ix2 r j)) j := by
  unfold cellArrOf cellOf
  simp only [addf_apply, mulf_apply, sigm_apply, hostTanh_apply, slice2_axis1_eq]
  rfl

/-- The new hidden state of the whole batch from the gates and the new cell state. -/
def hiddenArrOf (G : FVec Ideal S8192x4096 .f32) (Cn : FVec Ideal S8192x1024 .f32) : FVec Ideal S8192x1024 .f32 :=
  mulf (sigm (extractStridedSlice S8192x1024 ![0, 3072] G slices_S8192x4096_S8192x1024_0_3072))
    (Host.tanh (addf (mulf
        (hostNorm Cn 0x44800000#32 0x3727C5AC#32 reducesTo_S8192x1024_S8192_d1 h_S_ bcast_S8192_S8192x1_0 bcast_S_S8192x1
          bcast_S8192x1_S8192x1024_0_1)
        (broadcastInDim S8192x1024 ![0, 1] bcast_S1x1024_S8192x1024_0_1 (broadcastInDim S1x1024 ![1] bcast_S1024_S1x1024_1 gc)))
      (broadcastInDim S8192x1024 ![0, 1] bcast_S1x1024_S8192x1024_0_1 (broadcastInDim S1x1024 ![1] bcast_S1024_S1x1024_1 βc))))

theorem hiddenArrOf_apply (G : FVec Ideal S8192x4096 .f32) (Cn : FVec Ideal S8192x1024 .f32) (r : Fin 8192) (j : Fin 1024) :
    hiddenArrOf gc βc G Cn (ix2 r j)
      = hiddenOf (fun q => G (ix2 r q)) (fun k => Cn (ix2 r k)) (fun k => gc (ix1 k)) (fun k => βc (ix1 k)) j := by
  unfold hiddenArrOf hiddenOf layerNorm
  rw [mulf_apply, sigm_apply, slice2_axis1_eq, hostTanh_apply, addf_apply, mulf_apply,
    hostNorm_apply _ _ _ _ _ _ _ _ reduces1024, bcastInDim_rows_apply, bcastInDim_row_apply,
    bcastInDim_rows_apply, bcastInDim_row_apply]
  rfl

/-- The reference's new cell state is the specification's, row by row. -/
theorem cell_eq :
    cellArrOf c (gatesArr x h Wi bi Wh bh gi βi gh βh) = cellArr (arrParams Wi bi Wh bh gi βi gh βh gc βc) x h c := by
  funext i
  obtain ⟨r, j, rfl⟩ : ∃ (r : Fin 8192) (j : Fin 1024), i = ix2 r j := ⟨i 0, i 1, eq_ix2 i⟩
  rw [cellArrOf_apply]
  unfold cellArr rowCell
  exact congrArg (fun G => cellOf G (fun j => c (ix2 r j)) j)
    (funext fun q => gatesArr_apply x h Wi bi Wh bh gi βi gh βh gc βc r q)

/-- The reference's new hidden state is the specification's, row by row. -/
theorem hidden_eq :
    hiddenArrOf gc βc (gatesArr x h Wi bi Wh bh gi βi gh βh) (cellArrOf c (gatesArr x h Wi bi Wh bh gi βi gh βh))
      = hiddenArr (arrParams Wi bi Wh bh gi βi gh βh gc βc) x h c := by
  funext i
  obtain ⟨r, j, rfl⟩ : ∃ (r : Fin 8192) (j : Fin 1024), i = ix2 r j := ⟨i 0, i 1, eq_ix2 i⟩
  rw [hiddenArrOf_apply, cell_eq x h c Wi bi Wh bh gi βi gh βh gc βc]
  unfold hiddenArr rowHidden
  rw [show (fun q => gatesArr x h Wi bi Wh bh gi βi gh βh (ix2 r q))
      = rowGates (arrParams Wi bi Wh bh gi βi gh βh gc βc) (fun k => x (ix2 r k)) (fun k => h (ix2 r k))
    from funext fun q => gatesArr_apply x h Wi bi Wh bh gi βi gh βh gc βc r q]
  rfl

end Stages

end Cert.RefStages

end
-- ==== Proof.lean ====
/-
  The LayerNorm LSTM cell: a Pallas kernel over 64 blocks of 128 batch rows against jnp on the whole batch of 8192.

  Both programs compute, for every batch row with input x (512), previous hidden state h and previous cell state c
  (1024 each),
      gates = LayerNorm(x · Wiᵀ + bi; g_in, b_in) + LayerNorm(h · Whᵀ + bh; g_hid, b_hid)            (4096 columns)
      c_new = σ(gates[1024:2048]) · c + σ(gates[0:1024]) · tanh(gates[2048:3072])
      h_new = σ(gates[3072:4096]) · tanh(LayerNorm(c_new; g_cell, b_cell)),
  LayerNorm(r; g, β) q = (r q − mean r) · rsqrt(mean (r − mean r)² + eps) · g q + β q over the row, σ the logistic
  function. On the extended reals the two programs are the SAME function of their arguments, operation for operation:
  the kernel's bf16 casts of the matmul operands are the identity, its matmul contracting the last axes of both
  operands is jnp's product with the transposed weights (one sum over the contracted index), its row sums are the
  host's sums from zero, jnp's `1 / (1 + exp(−z))` is the logistic function, and the constants 4096, 1024 and eps are
  the same f32 words on both sides. The batch rows do not interact, so the kernel's 64 blocks of 128 rows tile the
  reference's 8192. No law of arithmetic beyond `0 + s = s` is used, and the precondition is never opened.

  Proof/LstmSpec.lean states the cell one row at a time; Proof/KernelPay.lean reads the kernel body's values at an index
  of a block; Proof/KernelBlock.lean takes the blocks to the two result arrays; Proof/RefStages.lean reads the reference's
  stages at an index; the Lib modules hold the layout, matmul and row-normalisation reads that are not about this kernel.
  Here: the three frames, the idealization (no operation of the kernel was rewritten), and the equivalence.
-/
import proofs.«426183_j66718021976166_3_alg».proof.Defs
import proofs.«426183_j66718021976166_3_alg».proof.Proof.Gen.Kernel
import proofs.«426183_j66718021976166_3_alg».proof.Proof.Gen.Kernel.Skeleton
import proofs.«426183_j66718021976166_3_alg».proof.Proof.Gen.Kernel.Launch
import proofs.«426183_j66718021976166_3_alg».proof.Proof.Gen.Kernel.Points
import proofs.«426183_j66718021976166_3_alg».proof.Proof.Gen.Kernel.Frame
import proofs.«426183_j66718021976166_3_alg».proof.Proof.Gen.KernelIdeal
import proofs.«426183_j66718021976166_3_alg».proof.Proof.Gen.KernelIdeal.Skeleton
import proofs.«426183_j66718021976166_3_alg».proof.Proof.Gen.KernelIdeal.Launch
import proofs.«426183_j66718021976166_3_alg».proof.Proof.Gen.KernelIdeal.Points
import proofs.«426183_j66718021976166_3_alg».proof.Proof.Gen.KernelIdeal.Frame
import proofs.«426183_j66718021976166_3_alg».proof.Proof.Gen.ReferenceIdeal
import proofs.«426183_j66718021976166_3_alg».proof.Proof.Gen.Pre_finite_inputs
import proofs.«426183_j66718021976166_3_alg».proof.Proof.Gen.KernelIdeal.Value
import proofs.«426183_j66718021976166_3_alg».proof.Proof.Gen.ReferenceIdeal.Run
import proofs.«426183_j66718021976166_3_alg».proof.Proof.KernelBlock
import proofs.«426183_j66718021976166_3_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read on the extended reals: no operation was rewritten. -/
theorem preserves : Cert.preserves_Kernel_KernelIdeal := trivial

/-- From memories agreeing on the thirteen arguments, the kernel's two result arrays and the reference's two results are
    the specification's new hidden state and new cell state of those arguments. -/
theorem algebraic : Cert.algebraic_KernelIdeal_ReferenceIdeal := by
  intro m ρ m' ρ' _ hagree
  refine ⟨fun c => Cert.KernelBlock.hiddenOut m c, fun c => Cert.KernelBlock.cellOut m c, Cert.KernelBlock.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12⟩ := hagree c
    refine (Cert.RefStages.hidden_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))).trans ?_
    unfold Cert.KernelBlock.hiddenOut Cert.KernelBlock.P
    rw [e0, e1, e2, e3, e4, e5, e6, e7, e8, e9, e10, e11, e12]
  · obtain ⟨e0, e1, e2, e3, e4, e5, e6, e7, e8, e9, e10, e11, e12⟩ := hagree c
    refine (Cert.RefStages.cell_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))).trans ?_
    unfold Cert.KernelBlock.cellOut Cert.KernelBlock.P
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
